-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S12800000 : Shape := ⟨1, ![12800000]⟩

abbrev nBuf : Space → Nat
  | .hbm => 94
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .bf16⟩
  | .hbm, ⟨47, _⟩ => ⟨S128x128, .bf16⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .bf16⟩
  | .hbm, ⟨72, _⟩ => ⟨S128x128, .bf16⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S12800000, .f32⟩
  | .local _ .vmem, ⟨0, _⟩ => ⟨S2000x128, .bf16⟩
  | .local _ .vmem, ⟨1, _⟩ => ⟨S2000x128, .bf16⟩
  | .local _ .vmem, ⟨2, _⟩ => ⟨S128x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .bf16⟩
  | .local _ .vmem, ⟨6, _⟩ => ⟨S2000x128, .bf16⟩
  | .local _ .vmem, ⟨7, _⟩ => ⟨S128x128, .bf16⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S12800000 : S100000x128.ShapeCasts S12800000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .bf16 = 32 ∨ (Rect.block (s := S100000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .bf16 = 32 ∨ (Rect.block (s := S100000x128) S2000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S12800000 : Shape := ⟨1, ![12800000]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x128, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | .hbm, ⟨122, _⟩ => ⟨S12800000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S12800000 : S100000x128.ShapeCasts S12800000
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Product.lean ====
import Idealize.ShloMosaic.PureOps.Ideal.Laws
import Idealize.ShloMosaic.Lib.ValueIdx

/-!
  The one piece of arithmetic in this certificate: the product of a 100000 × 128 array of rows with a 128 × 128
  array of weights, on the extended reals, entry by entry,

      (a ⬝ b) (r, c) = ∑ k < 128, a (r, k) · b (k, c).

  The kernel computes it fifty rows-blocks at a time (2000 rows a block, the weights whole at every block) from
  operands narrowed to bf16, which on the extended reals is no change at all; the reference computes it in one
  `dot_general`. Both are this sum of the same 128 products, so no law of the extended reals beyond re-indexing a
  finite sum is used, and finiteness of the inputs plays no part.
-/

noncomputable section

namespace Cert.Product

open Idealize.ShloMosaic

/-- The shape of the rows (node features, and every layer's output). -/
abbrev Rows : Shape := ⟨2, ![100000, 128]⟩
/-- The shape of a layer's weights. -/
abbrev Sq : Shape := ⟨2, ![128, 128]⟩
/-- The shape of one block of 2000 rows. -/
abbrev Blk : Shape := ⟨2, ![2000, 128]⟩

/-- The entry `(r, k)` of the rows that the product's entry `i = (r, c)` multiplies at the summation index `k`. -/
abbrev inRow (i : Rows.Idx) (k : Fin 128) : Rows.Idx := fun a => match a with
  | ⟨0, _⟩ => ⟨(i 0).val, (i 0).isLt⟩
  | ⟨1, _⟩ => ⟨k.val, k.isLt⟩

/-- The entry `(k, c)` of the weights that the product's entry `i = (r, c)` multiplies at `k`. -/
abbrev inCol (i : Rows.Idx) (k : Fin 128) : Sq.Idx := fun a => match a with
  | ⟨0, _⟩ => ⟨k.val, k.isLt⟩
  | ⟨1, _⟩ => ⟨(i 1).val, (i 1).isLt⟩

/-- Rows times weights, entry by entry, on the extended reals. -/
def rowsTimes (a : Rows.Idx → EReal) (b : Sq.Idx → EReal) : Rows.Idx → EReal :=
  fun i => ∑ k : Fin 128, a (inRow i k) * b (inCol i k)

theorem rowsTimes_apply (a : Rows.Idx → EReal) (b : Sq.Idx → EReal) (i : Rows.Idx) :
    rowsTimes a b i = ∑ k : Fin 128, a (inRow i k) * b (inCol i k) := rfl

/-- The same two index maps inside one block of 2000 rows: the block's entry `(r, k)` … -/
abbrev blkRow (j : Blk.Idx) (k : Fin 128) : Blk.Idx := fun a => match a with
  | ⟨0, _⟩ => ⟨(j 0).val, (j 0).isLt⟩
  | ⟨1, _⟩ => ⟨k.val, k.isLt⟩

/-- … and the weights' entry `(k, c)`, for the block's entry `j = (r, c)`. -/
abbrev blkCol (j : Blk.Idx) (k : Fin 128) : Sq.Idx := fun a => match a with
  | ⟨0, _⟩ => ⟨k.val, k.isLt⟩
  | ⟨1, _⟩ => ⟨(j 1).val, (j 1).isLt⟩

end Cert.Product

end
-- ==== Proof.Layers.lean ====
import proofs.«159382_j10694468567653_1_alg».proof.Proof.RefRead
import proofs.«159382_j10694468567653_1_alg».proof.Proof.Product

/-!
  The reference, cut at its two products.

  A graph-convolution layer is a linear map of the node features followed by message passing: with `src`, `dst` the
  edge lists extended by one self-loop per node and `w e = dinv (src e) · dinv (dst e)` the symmetric normalisation
  (`dinv` the inverse square root of a node's in-degree, zero at degree zero),

      layer h b = (node n ↦ ∑ over edges e with dst e = n of h (src e) · w e) + b.

  Everything after the linear map depends on the linear map's OUTPUT `h` only, through a gather of rows, a
  product with the broadcast edge weights, a scatter-add and the bias: `aggregate h edges b` below. It is stated
  once, generically in the float family, over the reference's own staged operations, so that the reference's
  result reads

      flatten (aggregate (rectify (aggregate (x ⬝ W1) edges b1) ⬝ W2) edges b2),

  with `⬝` its `dot_general` — which on the extended reals is the entry-by-entry product of Product.lean. The
  second layer recomputes the degrees and the edge weights from the same edge lists: the same operations of the
  same operand, hence the same function.
-/

noncomputable section

namespace Cert.ReferenceIdeal.Layers

open Cert.ReferenceIdeal Cert.ReferenceIdeal.Gen Cert.ReferenceIdeal.Read Cert.Product
open Idealize.ShloMosaic Idealize.ShloMosaic.TcCoe Idealize.SL.Sem Idealize.ShloMosaic.StableHlo

variable {F : FTy → Type} [FloatOps F]

/-- Message passing and bias on a linear map's output `h`: rows gathered at the source nodes, scaled by the edge
    weights, summed into the target nodes from zero, the bias added to every row. -/
def aggregate (h : (⟨S100000x128, .f32⟩ : BufTy).Contents (Elt F)) (x1 : (⟨S2x1600000, .i32⟩ : BufTy).Contents (Elt F)) (b : (⟨S128, .f32⟩ : BufTy).Contents (Elt F)) : (⟨S100000x128, .f32⟩ : BufTy).Contents (Elt F) :=
  addf
    (Host.scatterAdd scatter_S100000x128_S1700000x1_S1700000x128_1_0_0_1 (val_main_v41 (F := F)) (val_main_v42 (F := F) x1)
      (mulf (Host.gather gather_S100000x128_S1700000x1_S1700000x128_1_0_n_n_0_1_1128 h (val_main_v36 (F := F) x1)) (val_main_v39 (F := F) x1)))
    (val_main_v45 (F := F) b)

/-- The rectifier: the maximum with zero, entry by entry. -/
def rectify (a : (⟨S100000x128, .f32⟩ : BufTy).Contents (Elt F)) : (⟨S100000x128, .f32⟩ : BufTy).Contents (Elt F) :=
  maximumf a (val_main_call1_v0 (F := F))

/-- The result laid out as one row of 12800000 entries. -/
def flatten (a : (⟨S100000x128, .f32⟩ : BufTy).Contents (Elt F)) : (⟨S12800000, .f32⟩ : BufTy).Contents (Elt F) :=
  shapeCast _ a shapeCasts_S100000x128_S12800000

/-- The reference's first layer, rectified, is `rectify ∘ aggregate` of its first product. -/
theorem first_layer (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) :
    val_main_v47 (F := F) x0 x1 x2 x3 = rectify (aggregate (val_main_v15 (F := F) x0 x2) x1 x3) := rfl

/-- The reference's result is `flatten ∘ aggregate` of its second product: the second layer's recomputed degrees and
    edge weights are the first layer's operations of the same edge lists. -/
theorem second_layer (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) :
    val_main_v88 (F := F) x0 x1 x2 x3 x4 x5 = flatten (aggregate (val_main_v56 (F := F) x0 x1 x2 x3 x4) x1 x5) := rfl

/-- The second product's operands. -/
theorem second_product (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v56 (F := F) x0 x1 x2 x3 x4 = Host.dotGeneral dot_S100000x128_S128x128_S100000x128_1_0_0_1_n_n none (val_main_v47 (F := F) x0 x1 x2 x3) x4 := rfl

/-! ## On the extended reals the reference's product is the entry-by-entry sum -/

theorem lidx_eq (i : S100000x128.Idx) (k : Fin 128) : lidx_main_v15 i k = inRow i k :=
  funext fun a => match a with | ⟨0, _⟩ => rfl | ⟨1, _⟩ => rfl
theorem ridx_eq (i : S100000x128.Idx) (k : Fin 128) : ridx_main_v15 i k = inCol i k :=
  funext fun a => match a with | ⟨0, _⟩ => rfl | ⟨1, _⟩ => rfl

/-- `dot_general` contracting the rows' columns with the weights' rows is `rowsTimes`. -/
theorem dot_eq (a : FVec Ideal S100000x128 .f32) (b : FVec Ideal S128x128 .f32) :
    Host.dotGeneral (F := Ideal) dot_S100000x128_S128x128_S100000x128_1_0_0_1_n_n none a b = rowsTimes a b := by
  funext i
  refine (val_main_v15_apply a b i).trans ?_
  rw [rowsTimes_apply]
  exact Finset.sum_congr rfl fun k _ => by rw [lidx_eq, ridx_eq]

/-- The reference's result on the extended reals, as one function of the six arguments. -/
def result (x0 : Rows.Idx → EReal) (x1 : (⟨S2x1600000, .i32⟩ : BufTy).Contents (Elt Ideal)) (x2 : Sq.Idx → EReal)
    (x3 : (⟨S128, .f32⟩ : BufTy).Contents (Elt Ideal)) (x4 : Sq.Idx → EReal) (x5 : (⟨S128, .f32⟩ : BufTy).Contents (Elt Ideal)) :
    (⟨S12800000, .f32⟩ : BufTy).Contents (Elt Ideal) :=
  flatten (F := Ideal) (aggregate (F := Ideal) (rowsTimes (rectify (F := Ideal) (aggregate (F := Ideal) (rowsTimes x0 x2) x1 x3)) x4) x1 x5)

/-- The reference's staged result is `result` of its arguments. -/
theorem val_result (x0 : Rows.Idx → EReal) (x1 : (⟨S2x1600000, .i32⟩ : BufTy).Contents (Elt Ideal)) (x2 : Sq.Idx → EReal)
    (x3 : (⟨S128, .f32⟩ : BufTy).Contents (Elt Ideal)) (x4 : Sq.Idx → EReal) (x5 : (⟨S128, .f32⟩ : BufTy).Contents (Elt Ideal)) :
    val_main_v88 (F := Ideal) x0 x1 x2 x3 x4 x5 = result x0 x1 x2 x3 x4 x5 := by
  rw [second_layer, second_product, first_layer]
  unfold val_main_v15 result
  rw [dot_eq, dot_eq]

end Cert.ReferenceIdeal.Layers

end
-- ==== Proof.KernelFold.lean ====
import proofs.«159382_j10694468567653_1_alg».proof.Proof.Gen.KernelIdeal.Frame
import proofs.«159382_j10694468567653_1_alg».proof.Proof.Layers
import Idealize.ShloMosaic.Lib.StableHlo.Run

/-!
  The idealized kernel's host operations, read through the fold of buffer contents (generic in the float family).

  The generated frame names the contents of every buffer at each of @main's ten segment boundaries:
  `W0` the launch memory, `W3` what the first product region is entered with, `W4` what it leaves, `W7` / `W8` the
  same for the second region, `W9` the end. Between the boundaries lie only host operations, and they are the
  reference's own operations, one for one, around the two products:

  * before the first region: the edge lists with self-loops (`main_v3`, `main_v6`), the edge weights (`main_v29`)
    and the two operands narrowed to bf16 (`main_v30`, `main_v31`);
  * between the regions: `rectify (aggregate h1 edges b1)` of the first region's output `h1`, narrowed (`main_v50`), and
    the second weights narrowed (`main_v51`);
  * after the second region: `flatten (aggregate h2 edges b2)` of its output `h2` (`main_v69`, the result).

  The kernel computes the edge lists and weights once and reads them in both layers; a buffer no later operation
  and no region writes keeps its contents from boundary to boundary.
-/

set_option maxRecDepth 16384

noncomputable section

namespace Cert.KernelIdeal.Fold

open Cert.KernelIdeal Cert.KernelIdeal.Gen
open Cert.ReferenceIdeal.Read (val_main_v3 val_main_v6 val_main_v30)
open Cert.ReferenceIdeal.Layers (aggregate rectify flatten)
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

/-- The source nodes of the edges, self-loops appended. -/
theorem src3 (c : Dev nD) : W3 m ρ c (Proc.devRef .tc main_v3) = val_main_v3 (F := F) (m ((c.tc : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp <;> rfl

/-- The target nodes of the edges, self-loops appended. -/
theorem dst3 (c : Dev nD) : W3 m ρ c (Proc.devRef .tc main_v6) = val_main_v6 (F := F) (m ((c.tc : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp <;> rfl

/-- The edge weights: the product of the inverse square roots of the two end nodes' degrees. -/
theorem wgt3 (c : Dev nD) : W3 m ρ c (Proc.devRef .tc main_v29) = val_main_v30 (F := F) (m ((c.tc : Thread nD τ).loc main_arg1)) := by
  show StableHlo.after hostOps0_2 (StableHlo.after hostOps0_1 (StableHlo.after hostOps0 (W0 m ρ c))) (Proc.devRef .tc main_v29) = _
  simp only [hostOps0, hostOps0_1, hostOps0_2]
  after_results_simp <;> rfl

/-- The first region's rows: the node features narrowed to bf16. -/
theorem rows3 (c : Dev nD) : W3 m ρ c (Proc.devRef .tc main_v30) = truncf .bf16 (m ((c.tc : Thread nD τ).loc main_arg0)) bitsLt_bf16_f32 := by
  show StableHlo.after hostOps0_2 (StableHlo.after hostOps0_1 (StableHlo.after hostOps0 (W0 m ρ c))) (Proc.devRef .tc main_v30) = _
  simp only [hostOps0, hostOps0_1, hostOps0_2]
  after_results_simp <;> rfl

/-- The first region's weights: the first layer's, narrowed to bf16. -/
theorem weights3 (c : Dev nD) : W3 m ρ c (Proc.devRef .tc main_v31) = truncf .bf16 (m ((c.tc : Thread nD τ).loc main_arg2)) bitsLt_bf16_f32 := by
  show StableHlo.after hostOps0_2 (StableHlo.after hostOps0_1 (StableHlo.after hostOps0 (W0 m ρ c))) (Proc.devRef .tc main_v31) = _
  simp only [hostOps0, hostOps0_1, hostOps0_2]
  after_results_simp <;> rfl

/-- An argument array no operation before the first region writes. -/
theorem arg3_3 (c : Dev nD) : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  simp only [hostOps0, hostOps0_1, hostOps0_2]
  after_results_simp <;> rfl
theorem arg4_3 (c : Dev nD) : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  simp only [hostOps0, hostOps0_1, hostOps0_2]
  after_results_simp <;> rfl
theorem arg5_3 (c : Dev nD) : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  simp only [hostOps0, hostOps0_1, hostOps0_2]
  after_results_simp <;> rfl

/-! ## Across the first region: only its output array changes -/

theorem src4 (c : Dev nD) : W4 m ρ c (Proc.devRef .tc main_v3) = val_main_v3 (F := F) (m ((c.tc : Thread nD τ).loc main_arg1)) :=
  (W4_of_ne m ρ c main_v3 (by decide)).trans (src3 m ρ c)
theorem dst4 (c : Dev nD) : W4 m ρ c (Proc.devRef .tc main_v6) = val_main_v6 (F := F) (m ((c.tc : Thread nD τ).loc main_arg1)) :=
  (W4_of_ne m ρ c main_v6 (by decide)).trans (dst3 m ρ c)
theorem wgt4 (c : Dev nD) : W4 m ρ c (Proc.devRef .tc main_v29) = val_main_v30 (F := F) (m ((c.tc : Thread nD τ).loc main_arg1)) :=
  (W4_of_ne m ρ c main_v29 (by decide)).trans (wgt3 m ρ c)
theorem arg3_4 (c : Dev nD) : W4 m ρ c (Proc.devRef .tc main_arg3) = (m ((c.tc : Thread nD τ).loc main_arg3)) :=
  (W4_of_ne m ρ c main_arg3 (by decide)).trans (arg3_3 m ρ c)
theorem arg4_4 (c : Dev nD) : W4 m ρ c (Proc.devRef .tc main_arg4) = (m ((c.tc : Thread nD τ).loc main_arg4)) :=
  (W4_of_ne m ρ c main_arg4 (by decide)).trans (arg4_3 m ρ c)
theorem arg5_4 (c : Dev nD) : W4 m ρ c (Proc.devRef .tc main_arg5) = (m ((c.tc : Thread nD τ).loc main_arg5)) :=
  (W4_of_ne m ρ c main_arg5 (by decide)).trans (arg5_3 m ρ c)

/-! ## Between the regions -/

/-- The second region's rows: the first layer of the first region's output, rectified, narrowed to bf16. -/
theorem rows7 (c : Dev nD) : W7 m ρ c (Proc.devRef .tc main_v50) =
    truncf .bf16 (rectify (F := F) (aggregate (F := F) (W4 m ρ c (Proc.devRef .tc main_v32)) (m ((c.tc : Thread nD τ).loc main_arg1)) (m ((c.tc : Thread nD τ).loc main_arg3)))) bitsLt_bf16_f32 := by
  show StableHlo.after hostOps1_2 (StableHlo.after hostOps1_1 (StableHlo.after hostOps1 (W4 m ρ c))) (Proc.devRef .tc main_v50) = _
  simp only [hostOps1, hostOps1_1, hostOps1_2]
  after_results_simp
  rw [src4, dst4, wgt4, arg3_4]
  rfl

/-- The second region's weights: the second layer's, narrowed to bf16. -/
theorem weights7 (c : Dev nD) : W7 m ρ c (Proc.devRef .tc main_v51) = truncf .bf16 (m ((c.tc : Thread nD τ).loc main_arg4)) bitsLt_bf16_f32 := by
  show StableHlo.after hostOps1_2 (StableHlo.after hostOps1_1 (StableHlo.after hostOps1 (W4 m ρ c))) (Proc.devRef .tc main_v51) = _
  simp only [hostOps1, hostOps1_1, hostOps1_2]
  after_results_simp
  rw [arg4_4]

/-- What the operations between the regions do not write, they keep. -/
theorem src7 (c : Dev nD) : W7 m ρ c (Proc.devRef .tc main_v3) = val_main_v3 (F := F) (m ((c.tc : Thread nD τ).loc main_arg1)) := by
  show StableHlo.after hostOps1_2 (StableHlo.after hostOps1_1 (StableHlo.after hostOps1 (W4 m ρ c))) (Proc.devRef .tc main_v3) = _
  simp only [hostOps1, hostOps1_1, hostOps1_2]
  after_results_simp
  exact src4 m ρ c
theorem dst7 (c : Dev nD) : W7 m ρ c (Proc.devRef .tc main_v6) = val_main_v6 (F := F) (m ((c.tc : Thread nD τ).loc main_arg1)) := by
  show StableHlo.after hostOps1_2 (StableHlo.after hostOps1_1 (StableHlo.after hostOps1 (W4 m ρ c))) (Proc.devRef .tc main_v6) = _
  simp only [hostOps1, hostOps1_1, hostOps1_2]
  after_results_simp
  exact dst4 m ρ c
theorem wgt7 (c : Dev nD) : W7 m ρ c (Proc.devRef .tc main_v29) = val_main_v30 (F := F) (m ((c.tc : Thread nD τ).loc main_arg1)) := by
  show StableHlo.after hostOps1_2 (StableHlo.after hostOps1_1 (StableHlo.after hostOps1 (W4 m ρ c))) (Proc.devRef .tc main_v29) = _
  simp only [hostOps1, hostOps1_1, hostOps1_2]
  after_results_simp
  exact wgt4 m ρ c
theorem arg5_7 (c : Dev nD) : W7 m ρ c (Proc.devRef .tc main_arg5) = (m ((c.tc : Thread nD τ).loc main_arg5)) := by
  show StableHlo.after hostOps1_2 (StableHlo.after hostOps1_1 (StableHlo.after hostOps1 (W4 m ρ c))) (Proc.devRef .tc main_arg5) = _
  simp only [hostOps1, hostOps1_1, hostOps1_2]
  after_results_simp
  exact arg5_4 m ρ c

/-! ## Across the second region, and after it -/

theorem src8 (c : Dev nD) : W8 m ρ c (Proc.devRef .tc main_v3) = val_main_v3 (F := F) (m ((c.tc : Thread nD τ).loc main_arg1)) :=
  (W8_of_ne m ρ c main_v3 (by decide)).trans (src7 m ρ c)
theorem dst8 (c : Dev nD) : W8 m ρ c (Proc.devRef .tc main_v6) = val_main_v6 (F := F) (m ((c.tc : Thread nD τ).loc main_arg1)) :=
  (W8_of_ne m ρ c main_v6 (by decide)).trans (dst7 m ρ c)
theorem wgt8 (c : Dev nD) : W8 m ρ c (Proc.devRef .tc main_v29) = val_main_v30 (F := F) (m ((c.tc : Thread nD τ).loc main_arg1)) :=
  (W8_of_ne m ρ c main_v29 (by decide)).trans (wgt7 m ρ c)
theorem arg5_8 (c : Dev nD) : W8 m ρ c (Proc.devRef .tc main_arg5) = (m ((c.tc : Thread nD τ).loc main_arg5)) :=
  (W8_of_ne m ρ c main_arg5 (by decide)).trans (arg5_7 m ρ c)

/-- The result: the second layer of the second region's output, laid out flat. -/
theorem out9 (c : Dev nD) : W9 m ρ c (Proc.devRef .tc main_v69) =
    flatten (F := F) (aggregate (F := F) (W8 m ρ c (Proc.devRef .tc main_v52)) (m ((c.tc : Thread nD τ).loc main_arg1)) (m ((c.tc : Thread nD τ).loc main_arg5))) := by
  show StableHlo.after hostOps2 (W8 m ρ c) (Proc.devRef .tc main_v69) = _
  simp only [hostOps2]
  after_results_simp
  rw [src8, dst8, wgt8, arg5_8]
  rfl

end Cert.KernelIdeal.Fold

end
-- ==== Proof.FirstProduct.lean ====
import proofs.«159382_j10694468567653_1_alg».proof.Proof.Gen.KernelIdeal.Frame
import proofs.«159382_j10694468567653_1_alg».proof.Proof.Product
import Idealize.ShloMosaic.Lib.Pipeline.Value
import Idealize.ShloMosaic.Lib.ValueIdx
import Idealize.ShloMosaic.PureOps.Ideal.Laws

/-!
  The first row-tiled product region of the idealized kernel's @main: the node features (narrowed to bf16 by the host) times the weights of the first layer.

  The region runs its body at fifty grid points. At point `t` the body is handed rows `2000·t … 2000·t + 1999`
  of the rows array (all 128 columns) and the whole weights array, multiplies them into a zero accumulator and
  stores the 2000 × 128 result, which the pipeline writes back to rows `2000·t … 2000·t + 1999` of the output
  array. Entry `(r, c)` of a block's product is `∑ k, block (r, k) · weights (k, c)`; read through the block's
  position that is `∑ k, rows (2000·t + r, k) · weights (k, c)`: the block of the whole product `rows ⬝ weights`
  (Product.lean). The fifty blocks tile the 100000 rows, so when the region is left the output array holds
  `rows ⬝ weights`, whatever it held before.
-/

set_option maxRecDepth 16384

noncomputable section

namespace Cert.KernelIdeal.FirstProduct

open Cert.KernelIdeal Cert.KernelIdeal.Gen Cert.Product
open Idealize.ShloMosaic Idealize.ShloMosaic.TcCoe Idealize.SL.Sem
open Idealize.ShloMosaic.Pipeline (Dat Cfg Window)

/-! ## The body's product at an entry of the block -/

/-- The left operand's entry for the block's entry `j` and a contraction index: its row is `j`'s. -/
theorem lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Its column is the contraction index. -/
theorem lhs_col (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
/-- The right operand's row is the contraction index, -/
theorem rhs_row (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
/-- and its column is `j`'s. -/
theorem rhs_col (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- What the body stores, at entry `j = (r, c)` of the block: the sum over `k` of the rows-block's `(r, k)` times the
    weights' `(k, c)` (the casts of a shape to itself are the identity; the accumulator is the zero splat). -/
theorem pay_apply (x0 : FVec Ideal S2000x128 .bf16) (x1 : FVec Ideal S128x128 .bf16) (j : S2000x128.Idx) :
    k0_pay1 (F := Ideal) x0 x1 j = ∑ k : Fin 128, x0 (blkRow j k) * x1 (blkCol j k) := by
  unfold k0_pay1
  simp only [shapeCast_self, matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = blkRow j k := funext fun a => Fin.ext (by
    match a with
    | ⟨0, _⟩ => exact lhs_row _ _
    | ⟨1, _⟩ => exact (lhs_col _ _).trans hk)
  have er : dot_S2000x128_S128x128_S2000x128_1_0_0_1_n_n.rhsIdx j ((ValueIdx.contrEquiv1 dot_S2000x128_S128x128_S2000x128_1_0_0_1_n_n 128 rfl rfl).symm k) = blkCol j k := funext fun a => Fin.ext (by
    match a with
    | ⟨0, _⟩ => exact (rhs_row _ _).trans hk
    | ⟨1, _⟩ => exact rhs_col _ _)
  rw [el, er]

/-! ## From the blocks to the array -/

variable (V : (c : Dev nD) → (b : Ref sig .tc) → Buf (Elt Ideal) ((c : Thread nD τ).loc b))

/-- The rows array as the region finds it, -/
abbrev rowsIn (c : Dev nD) : Rows.Idx → EReal := V c main_v30
/-- and the weights array. -/
abbrev weightsIn (c : Dev nD) : Sq.Idx → EReal := V c main_v31

theorem hz : (![0, 0] : Fin 2 → Nat) = fun _ => 0 := funext fun a => by fin_cases a <;> rfl

/-- Where the three windows' blocks sit at point `t`: the rows' and the output's at block-row `t`, the weights' fixed. -/
theorem where_blocks : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every one of the fifty block-rows is some point's. -/
theorem every_block : ∀ q : Fin 50, ∃ t : Fin cfg0.N, win0_2.index t = ![q.val, 0] :=
  (by decide +kernel : ∀ q : Fin 50, ∃ t : Fin grid0.N, win0_2.index t = ![q.val, 0])

/-- What point `t` writes back is block `t` of the whole product of the two arrays as the region finds them. -/
theorem flushed_eq (c : Dev nD) (t : Fin cfg0.N) :
    (dat0 V c).flushed 2 t = ((cfg0.win 2).blk t).view.read (Elt Ideal) (rowsTimes (rowsIn V c) (weightsIn V c)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext j
  show k0_pay1 (F := Ideal) (iblk0 V c 0 t) (iblk0 V c 1 t) j = rowsTimes (rowsIn V c) (weightsIn V c) (((cfg0.win 2).blk t).view.emb j)
  rw [pay_apply, rowsTimes_apply]
  obtain ⟨e0, e1, e2, e3, e4, e5⟩ := where_blocks t
  refine Finset.sum_congr rfl fun k _ => ?_
  have h0 : iblk0 V c 0 t (blkRow j k) = rowsIn V c (inRow (((cfg0.win 2).blk t).view.emb j) k) := by
    show V c main_v30 (((cfg0.win 0).blk t).view.emb (blkRow j k)) = V c main_v30 (inRow (((cfg0.win 2).blk t).view.emb j) k)
    refine congrArg _ ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : iblk0 V c 1 t (blkCol j k) = weightsIn V c (inCol (((cfg0.win 2).blk t).view.emb j) k) := by
    show V c main_v31 (((cfg0.win 1).blk t).view.emb (blkCol j k)) = V c main_v31 (inCol (((cfg0.win 2).blk t).view.emb j) k)
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An entry of the output array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every entry of the output array is in some point's block: row `r` is in block-row `r / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := every_block ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array when the region is left: the whole product of the rows and the weights it was entered with. -/
theorem out_eq (c : Dev nD) :
    (dat0 V c).arrAt 2 cfg0.N = rowsTimes (rowsIn V c) (weightsIn V c) :=
  (dat0 V c).arrAt_eq_of_cover 2 _ (fun t _ => flushed_eq V c t) covered

end Cert.KernelIdeal.FirstProduct

end
-- ==== Proof.KernelValue.lean ====
import proofs.«159382_j10694468567653_1_alg».proof.Proof.KernelFold
import proofs.«159382_j10694468567653_1_alg».proof.Proof.FirstProduct
import proofs.«159382_j10694468567653_1_alg».proof.Proof.SecondProduct
import proofs.«159382_j10694468567653_1_alg».proof.Proof.KernelRun

/-!
  The idealized kernel's result on the extended reals.

  Narrowing a float to bf16 is the identity on the extended reals, so the first region is entered with the node
  features and the first weights themselves and leaves their product `x ⬝ W1` (FirstProduct); the operations between
  the regions make `rectify (aggregate (x ⬝ W1) edges b1)` of it (KernelFold), which, narrowed (no change), the
  second region multiplies by the second weights (SecondProduct); the last operations make
  `flatten (aggregate (… ⬝ W2) edges b2)` of that. This is the reference's `result` (Layers) of the six arguments,
  term for term, and the run of @main (KernelRun) ends with the returned array holding it.
-/

set_option maxRecDepth 16384

noncomputable section

namespace Cert.KernelIdeal.Result

open Cert.KernelIdeal Cert.KernelIdeal.Gen Cert.Product
open Cert.ReferenceIdeal.Layers (aggregate rectify flatten result)
open Idealize.ShloMosaic Idealize.ShloMosaic.TcCoe Idealize.SL.Sem

variable (m : (ℓ : Loc nD τ sig) → Buf (Elt Ideal) ℓ) (ρ : Dev nD → PrngReg)

/-- Narrowing to bf16 changes nothing on the extended reals. -/
theorem narrow_id {s : Shape} (v : FVec Ideal s .f32) (h : FTy.bits .bf16 < FTy.bits .f32) : truncf .bf16 v h = v := rfl

/-- The first region leaves the product of the node features and the first weights. -/
theorem first_out (c : Dev nD) :
    W4 m ρ c (Proc.devRef .tc main_v32) = rowsTimes (m ((c.tc : Thread nD τ).loc main_arg0)) (m ((c.tc : Thread nD τ).loc main_arg2)) := by
  refine (W4_arr m ρ c 2).trans ((FirstProduct.out_eq (V3 m ρ) c).trans ?_)
  show rowsTimes (W3 m ρ c (Proc.devRef .tc main_v30)) (W3 m ρ c (Proc.devRef .tc main_v31)) = _
  rw [Fold.rows3, Fold.weights3, narrow_id, narrow_id]

/-- The second region leaves the product of the rectified first layer and the second weights. -/
theorem second_out (c : Dev nD) :
    W8 m ρ c (Proc.devRef .tc main_v52) =
      rowsTimes (rectify (F := Ideal) (aggregate (F := Ideal) (rowsTimes (m ((c.tc : Thread nD τ).loc main_arg0)) (m ((c.tc : Thread nD τ).loc main_arg2))) (m ((c.tc : Thread nD τ).loc main_arg1)) (m ((c.tc : Thread nD τ).loc main_arg3)))) (m ((c.tc : Thread nD τ).loc main_arg4)) := by
  refine (W8_arr m ρ c 2).trans ((SecondProduct.out_eq (V7 m ρ) c).trans ?_)
  show rowsTimes (W7 m ρ c (Proc.devRef .tc main_v50)) (W7 m ρ c (Proc.devRef .tc main_v51)) = _
  rw [Fold.rows7, Fold.weights7, narrow_id, narrow_id, first_out]

/-- The returned array's last contents: the reference's `result` of the six arguments. -/
theorem out_eq (c : Dev nD) :
    W9 m ρ c (Proc.devRef .tc main_v69) =
      result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [Fold.out9, second_out]
  rfl

/-- Every weakly fair execution of the idealized kernel's @main terminates, nothing faulting, with the returned
    array at `result` of the arguments and the arguments as launched. -/
theorem run : θ_run defs (onTc (τ := τ) (main (F := Ideal))) ⟨m, fun _ => 0, ρ⟩ (fun r => ∀ c : Dev nD,
      r.2.mem ((c.tc : Thread nD τ).loc main_v69) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_eq m ρ c), (h c).2⟩) (Out.run_out m ρ)

end Cert.KernelIdeal.Result

end
-- ==== Proof.lean ====
/-
  The certificate of a two-layer graph convolution whose two linear maps are row-tiled kernels.

  Both programs compute, from node features `x`, edge lists, and per-layer weights and biases,

      flatten (layer₂ (relu (layer₁ x))),   layerᵢ h = aggregate (h ⬝ Wᵢ) edges bᵢ,

  where `aggregate` gathers rows at the edges' sources, scales them by the symmetric degree normalisation, sums them
  into the edges' targets and adds the bias. They differ only in `⬝`: the reference's is one `dot_general`; the
  kernel narrows both operands to bf16 and multiplies 2000 rows at a time into a zero accumulator. On the extended
  reals narrowing is the identity and both products are the same sum of 128 products per entry (Product.lean), so
  the two results are one function of the arguments (Layers.lean's `result`), with no appeal to the inputs being
  finite.

  The frames of the kernel and of its idealization are the generated ones; the reference's frame is its run with
  the result dropped; the idealization rewrote nothing, so `preserves` is `True`.
-/
import proofs.«159382_j10694468567653_1_alg».proof.Defs
import proofs.«159382_j10694468567653_1_alg».proof.Proof.Gen.Kernel
import proofs.«159382_j10694468567653_1_alg».proof.Proof.Gen.Kernel.Frame
import proofs.«159382_j10694468567653_1_alg».proof.Proof.Gen.KernelIdeal
import proofs.«159382_j10694468567653_1_alg».proof.Proof.Gen.KernelIdeal.Frame
import proofs.«159382_j10694468567653_1_alg».proof.Proof.Gen.ReferenceIdeal
import proofs.«159382_j10694468567653_1_alg».proof.Proof.Gen.Pre_finite_inputs
import proofs.«159382_j10694468567653_1_alg».proof.Proof.RefRun
import proofs.«159382_j10694468567653_1_alg».proof.Proof.RefRead
import proofs.«159382_j10694468567653_1_alg».proof.Proof.Layers
import proofs.«159382_j10694468567653_1_alg».proof.Proof.KernelValue
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `result` of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v88_eq, Cert.ReferenceIdeal.Layers.val_result,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
